-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S12288x4096 : Shape := ⟨2, ![12288, 4096]⟩
abbrev S32x12288 : Shape := ⟨2, ![32, 12288]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S32x12288 : S_.BroadcastsInDim S32x12288 (![] : Fin 0 → Fin S32x12288.rank)
  reducesTo_S32x12288_S_d0_1 : S32x12288.ReducesTo [0, 1] S_

variable [Facts]

def fn {F : FTy → Type} [FloatOps F] (main_arg0 : FVec F S8x4096 .f32) (main_arg1 : IVec S12288x4096 32) (main_arg2 : FVec F S32x12288 .f32) (main_arg3 : FVec F S32x12288 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S32x12288 .f32 := Host.absf main_arg2
  let main_cst_0 : FVec F S_ .f32 := constant S_ .f32 0x7F800000#32
  let main_v5 : FVec F S32x12288 .f32 := broadcastInDim S32x12288 ![] bcast_S_S32x12288 main_cst_0
  let main_v6 : IVec S32x12288 1 := cmpf .olt main_v4 main_v5
  let main_c_1 : IVec S_ 1 := constantI S_ 1 1#1
  let main_v7 : IVec S_ 1 := (fun x v => Host.reduce IntOp.andi x v reducesTo_S32x12288_S_d0_1 h_S_) main_v6 main_c_1
  let main_v8 : IVec S_ 1 := andi main_v3 main_v7
  let main_v9 : FVec F S32x12288 .f32 := Host.absf main_arg3
  let main_cst_2 : FVec F S_ .f32 := constant S_ .f32 0x7F800000#32
  let main_v10 : FVec F S32x12288 .f32 := broadcastInDim S32x12288 ![] bcast_S_S32x12288 main_cst_2
  let main_v11 : IVec S32x12288 1 := cmpf .olt main_v9 main_v10
  let main_c_3 : IVec S_ 1 := constantI S_ 1 1#1
  let main_v12 : IVec S_ 1 := (fun x v => Host.reduce IntOp.andi x v reducesTo_S32x12288_S_d0_1 h_S_) main_v11 main_c_3
  let main_v13 : IVec S_ 1 := andi main_v8 main_v12
  main_v13
-- ==== Kernel.lean ====
abbrev S8x4096 : Shape := ⟨2, ![8, 4096]⟩
abbrev S12288x4096 : Shape := ⟨2, ![12288, 4096]⟩
abbrev S32x12288 : Shape := ⟨2, ![32, 12288]⟩
abbrev S8x12288 : Shape := ⟨2, ![8, 12288]⟩
abbrev S8x1024 : Shape := ⟨2, ![8, 1024]⟩
abbrev S1024x1024 : Shape := ⟨2, ![1024, 1024]⟩
abbrev S32x1024 : Shape := ⟨2, ![32, 1024]⟩
abbrev S1024x8 : Shape := ⟨2, ![1024, 8]⟩
abbrev S1024x8x128 : Shape := ⟨3, ![1024, 8, 128]⟩
abbrev S1024x8x1 : Shape := ⟨3, ![1024, 8, 1]⟩

abbrev nBuf : Space → Nat
  | .hbm => 5
  | .vmem => 11
  | .smem => 0
  | _ => 0

abbrev bufTy : (tb : Table) → Fin (tcTables nBuf tb) → BufTy
  | .hbm, ⟨0, _⟩ => ⟨S8x4096, .f32⟩
  | .hbm, ⟨1, _⟩ => ⟨S12288x4096, .i32⟩
  | .hbm, ⟨2, _⟩ => ⟨S32x12288, .f32⟩
  | .hbm, ⟨3, _⟩ => ⟨S32x12288, .f32⟩
  | .hbm, ⟨4, _⟩ => ⟨S8x12288, .f32⟩
  | .local _ .vmem, ⟨0, _⟩ => ⟨S8x1024, .f32⟩
  | .local _ .vmem, ⟨1, _⟩ => ⟨S8x1024, .f32⟩
  | .local _ .vmem, ⟨2, _⟩ => ⟨S1024x1024, .i32⟩
  | .local _ .vmem, ⟨3, _⟩ => ⟨S1024x1024, .i32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 4], ![false, false]⟩

def k0_mult1 (i : grid0.Coords) : BitVec 32 :=
  let arg1 : BitVec 32 := BitVec.ofNat 32 (i 1).val
  let c8_i32 : BitVec 32 := 8#32
  let v3 : BitVec 32 := Scalar.muli arg1 c8_i32
  v3
def k0_off1 (i : grid0.Coords) : Fin 2 → Nat :=
  let arg1 : BitVec 32 := BitVec.ofNat 32 (i 1).val
  let c8_i32 : BitVec 32 := 8#32
  let v3 : BitVec 32 := Scalar.muli arg1 c8_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  inb_S1024x1024_S1024x1024_0_0 : ∀ a, (![0, 0] : Fin 2 → Nat) a + S1024x1024.size a ≤ S1024x1024.size a
  h_S1024x1024 : 0 < S1024x1024.numel
  shapeCasts_S1024x1024_S1024x8x128 : S1024x1024.ShapeCasts S1024x8x128
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  bitsLt_bf16_f32 : FTy.bits .bf16 < FTy.bits .f32
  transposes_S1024x1024_p1_0_S1024x1024 : S1024x1024.Transposes [1, 0] S1024x1024
  dot_S8x1024_S1024x1024_S8x1024_1_0_0_1_n_n_wf : DotDims.WF S8x1024 S1024x1024 S8x1024 [1] [0] [0] [1] [] []
  hrank0 : 0 < grid0.rank
  k0_mult1_dvd : ∀ i : grid0.Coords, 8 ∣ (k0_mult1 i).toNat
  k0_off1_inb : ∀ i : grid0.Coords, ∀ a, (k0_off1 i) a + S8x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S8x4096.size a
  hwx0_0 : ∀ i : grid0.Coords, EltTy.bits .f32 = 32 ∨ (Rect.block (s := S8x4096) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S12288x4096.size a
  hwx0_1 : ∀ i : grid0.Coords, EltTy.bits .i32 = 32 ∨ (Rect.block (s := S12288x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x12288.size a
  hwx0_2 : ∀ i : grid0.Coords, EltTy.bits .f32 = 32 ∨ (Rect.block (s := S32x12288) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x12288.size a
  hwx0_3 : ∀ i : grid0.Coords, EltTy.bits .f32 = 32 ∨ (Rect.block (s := S32x12288) S32x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x12288.size a
  hwx0_4 : ∀ i : grid0.Coords, EltTy.bits .f32 = 32 ∨ (Rect.block (s := S8x12288) S8x1024.size (cc0_transform_4 i) (hinb0_4 i)).WholeWords (EltTy.packing .f32)

variable [Facts₀]

def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096 : Shape := ⟨2, ![8, 4096]⟩
abbrev S12288x4096 : Shape := ⟨2, ![12288, 4096]⟩
abbrev S32x12288 : Shape := ⟨2, ![32, 12288]⟩
abbrev S12288x32x128 : Shape := ⟨3, ![12288, 32, 128]⟩
abbrev S12288x32 : Shape := ⟨2, ![12288, 32]⟩
abbrev S12288x32x1 : Shape := ⟨3, ![12288, 32, 1]⟩
abbrev S_ : Shape := ⟨0, ![]⟩
abbrev S8x12288 : Shape := ⟨2, ![8, 12288]⟩

abbrev nBuf : Space → Nat
  | .hbm => 19
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S12288x4096, .i32⟩
  | .hbm, ⟨2, _⟩ => ⟨S32x12288, .f32⟩
  | .hbm, ⟨3, _⟩ => ⟨S32x12288, .f32⟩
  | .hbm, ⟨4, _⟩ => ⟨S12288x32x128, .i32⟩
  | .hbm, ⟨5, _⟩ => ⟨S12288x32x128, .f32⟩
  | .hbm, ⟨6, _⟩ => ⟨S12288x32, .f32⟩
  | .hbm, ⟨7, _⟩ => ⟨S12288x32x1, .f32⟩
  | .hbm, ⟨8, _⟩ => ⟨S12288x32, .f32⟩
  | .hbm, ⟨9, _⟩ => ⟨S12288x32x1, .f32⟩
  | .hbm, ⟨10, _⟩ => ⟨S_, .f32⟩
  | .hbm, ⟨11, _⟩ => ⟨S12288x32x128, .f32⟩
  | .hbm, ⟨12, _⟩ => ⟨S12288x32x128, .f32⟩
  | .hbm, ⟨13, _⟩ => ⟨S12288x32x128, .f32⟩
  | .hbm, ⟨14, _⟩ => ⟨S12288x32x128, .f32⟩
  | .hbm, ⟨15, _⟩ => ⟨S12288x32x128, .f32⟩
  | .hbm, ⟨16, _⟩ => ⟨S12288x32x128, .f32⟩
  | .hbm, ⟨17, _⟩ => ⟨S12288x4096, .f32⟩
  | .hbm, ⟨18, _⟩ => ⟨S8x12288, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S12288x4096_S12288x32x128 : S12288x4096.ShapeCasts S12288x32x128
  transposes_S32x12288_S12288x32_1_0 : S32x12288.Transposes [1, 0] S12288x32
  bcast_S12288x32_S12288x32x1_0_1 : S12288x32.BroadcastsInDim S12288x32x1 (![0, 1] : Fin 2 → Fin S12288x32x1.rank)
  bcast_S_S12288x32x128 : S_.BroadcastsInDim S12288x32x128 (![] : Fin 0 → Fin S12288x32x128.rank)
  bcast_S12288x32x1_S12288x32x128_0_1_2 : S12288x32x1.BroadcastsInDim S12288x32x128 (![0, 1, 2] : Fin 3 → Fin S12288x32x128.rank)
  shapeCasts_S12288x32x128_S12288x4096 : S12288x32x128.ShapeCasts S12288x4096
  dot_S8x4096_S12288x4096_S8x12288_1_1_0_0_n_n_wf : DotDims.WF S8x4096 S12288x4096 S8x12288 [1] [1] [0] [0] [] []

variable [Facts₀]

def dot_S8x4096_S12288x4096_S8x12288_1_1_0_0_n_n : DotDims S8x4096 S12288x4096 S8x12288 where
  lhsContracting := [1]
  rhsContracting := [1]
  lhsNonContracting := [0]
  rhsNonContracting := [0]
  lhsBatch := []
  rhsBatch := []
  wf := dot_S8x4096_S12288x4096_S8x12288_1_1_0_0_n_n_wf

class Facts : Prop extends Facts₀ where

variable [Facts]
-- ==== Proof.Spec.lean ====
/-
  The linear layer with group-quantized weights, as one function of the four argument arrays.

  Column k of the 4096 input features belongs to group k / 128.  Row n of the weight matrix has, at column k,
  the entry  w[n,k] = (q[n,k] - 8) · s[k/128, n] + z[k/128, n],  the integer code q read as the number it denotes, and the
  result at (b, n) is  Σ_k x[b,k] · w[n,k]  over all 4096 columns.

  The 4096 columns are four tiles of 1024: column 1024·j + kk is column kk of tile j, and the sum over all columns is the
  sum over the tiles of the sums inside each tile (a commutative monoid's regrouping: nothing about finiteness enters).
-/
import Idealize.ShloMosaic.PureOps.Ideal
import Idealize.ShloMosaic.Lib.ValueIdx
import Mathlib.Algebra.BigOperators.Fin
import Mathlib.Algebra.BigOperators.Intervals

noncomputable section

open scoped BigOperators

namespace Cert.Dequant

open Idealize.ShloMosaic Idealize.ShloMosaic.ValueIdx

/-- The group of 128 consecutive columns that column `k` lies in. -/
def grp (k : Fin 4096) : Fin 32 := ⟨k.val / 128, by have := k.isLt; omega⟩

/-- The dequantized weight at row `n`, column `k`: `(q[n,k] - 8) · s[k/128, n] + z[k/128, n]`. -/
def wgt (q : (⟨2, ![12288, 4096]⟩ : Shape).Idx → BitVec 32) (s z : (⟨2, ![32, 12288]⟩ : Shape).Idx → EReal)
    (n : Fin 12288) (k : Fin 4096) : EReal :=
  (FloatOps.sitofp (F := Ideal) .f32 (q (ix2 n k)) - Ideal.ofBits .f32 0x41000000#32) * s (ix2 (grp k) n) + z (ix2 (grp k) n)

/-- The layer's result: `Σ_k x[b,k] · w[n,k]` at `(b, n)`. -/
def lin (x : (⟨2, ![8, 4096]⟩ : Shape).Idx → EReal) (q : (⟨2, ![12288, 4096]⟩ : Shape).Idx → BitVec 32)
    (s z : (⟨2, ![32, 12288]⟩ : Shape).Idx → EReal) : (⟨2, ![8, 12288]⟩ : Shape).Idx → EReal :=
  fun i => ∑ k : Fin 4096, x (ix2 (i 0) k) * wgt q s z (i 1) k

/-- Column `kk` of tile `j` is column `1024·j + kk`. -/
def col (j : Fin 4) (kk : Fin 1024) : Fin 4096 := ⟨1024 * j.val + kk.val, by have := j.isLt; have := kk.isLt; omega⟩

/-- The same for a tile number given as a natural below 4. -/
def colN (j : ℕ) (hj : j < 4) (kk : Fin 1024) : Fin 4096 := col ⟨j, hj⟩ kk

/-- A sum over the 4096 columns is the sum over the four tiles of the sums over each tile's 1024 columns. -/
theorem sum_tiles {M : Type*} [AddCommMonoid M] (f : Fin 4096 → M) :
    ∑ k : Fin 4096, f k = ∑ j : Fin 4, ∑ kk : Fin 1024, f (col j kk) := by
  have e := Equiv.sum_comp (finProdFinEquiv (m := 4) (n := 1024)) (fun k : Fin (4 * 1024) => f k)
  rw [Fintype.sum_prod_type] at e
  refine e.symm.trans (Finset.sum_congr rfl fun j _ => Finset.sum_congr rfl fun kk _ => congrArg f (Fin.ext ?_))
  show kk.val + 1024 * j.val = 1024 * j.val + kk.val
  omega

/-- The four tiles' sums added one after the other from zero, tile 0 first, are the sum over all columns. -/
theorem zero_add_range_tiles {M : Type*} [AddCommMonoid M] (f : Fin 4096 → M) (g : ℕ → M)
    (hg : ∀ (j : ℕ) (hj : j < 4), g j = ∑ kk : Fin 1024, f (colN j hj kk)) :
    0 + ∑ j ∈ Finset.range 4, g j = ∑ k : Fin 4096, f k := by
  rw [zero_add, sum_tiles, Finset.sum_range]
  exact Finset.sum_congr rfl fun j _ => hg j.val j.isLt

end Cert.Dequant

end
-- ==== Proof.RefIsLin.lean ====
/-
  The reference computes the layer's function.

  The reference views the codes as [12288, 32, 128] (row, group, lane), converts them, subtracts 8, multiplies by the
  transposed scales broadcast over the lanes, adds the transposed zero points likewise, views the result as [12288, 4096]
  again and contracts it with the activations over the 4096 columns.  Position (n, k) of the flat view is (n, k / 128,
  k % 128) of the grouped one, so the weight there is (q[n,k] - 8) · s[k/128, n] + z[k/128, n], and the contraction is the
  sum over k of x[b,k] times that weight.
-/
import proofs.«156196_j25744033972725_1_alg».proof.Proof.Gen.ReferenceIdeal.Read
import proofs.«156196_j25744033972725_1_alg».proof.Proof.Spec

noncomputable section

open scoped BigOperators

namespace Cert.ReferenceIdeal.IsLin

open Cert.ReferenceIdeal Cert.ReferenceIdeal.Gen Cert.ReferenceIdeal.Read Idealize.ShloMosaic Idealize.ShloMosaic.ValueIdx
open Cert.Dequant

/-- Position `(n, k)` of the flat codes, through the grouped view and back, is `(n, k)`. -/
theorem code_idx (n : Fin 12288) (k : Fin 4096) : idx_main_v0 (idx_main_v12 (ix2 n k)) = ix2 n k := by
  have hn := n.isLt; have hk := k.isLt
  funext a
  apply Fin.ext
  match a with
  | ⟨0, _⟩ =>
    show ((((n.val * 4096 + k.val) / 4096) * 32 + (n.val * 4096 + k.val) / 128 % 32) * 128 + (n.val * 4096 + k.val) % 128) / 4096 = n.val
    omega
  | ⟨1, _⟩ =>
    show ((((n.val * 4096 + k.val) / 4096) * 32 + (n.val * 4096 + k.val) / 128 % 32) * 128 + (n.val * 4096 + k.val) % 128) % 4096 = k.val
    omega

/-- The scale that multiplies position `(n, k)` is the one of group `k / 128` and row `n`. -/
theorem scale_idx (n : Fin 12288) (k : Fin 4096) :
    idx_main_v2 (idx_main_v3 (idx_main_v8 (idx_main_v12 (ix2 n k)))) = ix2 (grp k) n := by
  have hn := n.isLt; have hk := k.isLt
  funext a
  apply Fin.ext
  match a with
  | ⟨0, _⟩ =>
    show (n.val * 4096 + k.val) / 128 % 32 = k.val / 128
    omega
  | ⟨1, _⟩ =>
    show (n.val * 4096 + k.val) / 4096 = n.val
    omega

/-- The zero point added at position `(n, k)` likewise. -/
theorem zero_idx (n : Fin 12288) (k : Fin 4096) :
    idx_main_v4 (idx_main_v5 (idx_main_v10 (idx_main_v12 (ix2 n k)))) = ix2 (grp k) n := by
  have hn := n.isLt; have hk := k.isLt
  funext a
  apply Fin.ext
  match a with
  | ⟨0, _⟩ =>
    show (n.val * 4096 + k.val) / 128 % 32 = k.val / 128
    omega
  | ⟨1, _⟩ =>
    show (n.val * 4096 + k.val) / 4096 = n.val
    omega

/-- The reference's dequantized weight matrix at `(n, k)`. -/
theorem weight_apply (x1 : (⟨S12288x4096, .i32⟩ : BufTy).Contents (Elt Ideal)) (x2 x3 : (⟨S32x12288, .f32⟩ : BufTy).Contents (Elt Ideal))
    (n : Fin 12288) (k : Fin 4096) :
    val_main_v12 (F := Ideal) x1 x2 x3 (ix2 n k) = wgt x1 x2 x3 n k := by
  rw [val_main_v12_apply, val_main_v11_apply, val_main_v9_apply, val_main_v7_apply, val_main_v1_apply, val_main_v0_apply,
    val_main_v6_apply, val_main_cst_apply, val_main_v8_apply, val_main_v3_apply, val_main_v2_apply, val_main_v10_apply,
    val_main_v5_apply, val_main_v4_apply, code_idx, scale_idx, zero_idx]
  rfl

/-- The reference's result is the layer's function of the four arguments. -/
theorem result_eq (x0 : (⟨S8x4096, .f32⟩ : BufTy).Contents (Elt Ideal)) (x1 : (⟨S12288x4096, .i32⟩ : BufTy).Contents (Elt Ideal))
    (x2 x3 : (⟨S32x12288, .f32⟩ : BufTy).Contents (Elt Ideal)) :
    val_main_v13 (F := Ideal) x0 x1 x2 x3 = lin x0 x1 x2 x3 := by
  funext i
  obtain ⟨b, n, rfl⟩ : ∃ (b : Fin 8) (n : Fin 12288), i = ix2 b n := ⟨i 0, i 1, eq_ix2 i⟩
  rw [val_main_v13_apply]
  show _ = ∑ k : Fin 4096, x0 (ix2 b k) * wgt x1 x2 x3 n k
  refine Finset.sum_congr rfl fun k _ => ?_
  have el : lidx_main_v13 (ix2 b n) k = ix2 b k := funext fun a => Fin.ext (by match a with | ⟨0, _⟩ => rfl | ⟨1, _⟩ => rfl)
  have er : ridx_main_v13 (ix2 b n) k = ix2 n k := funext fun a => Fin.ext (by match a with | ⟨0, _⟩ => rfl | ⟨1, _⟩ => rfl)
  rw [el, er, weight_apply]

end Cert.ReferenceIdeal.IsLin

end
-- ==== Proof.LibReadCovWhole.lean ====
/-
  A whole-shape load after a list of stores.  The list holds the stores MOST RECENT FIRST: its head is the last store in
  time, its tail the earlier ones.  When that last store wrote the whole shape (a unit-stride rectangle at zero offsets of
  the shape's own extents), a load through that same rectangle reads that store's payload, whatever the earlier stores
  were: the last store covers every index, so the contents the list leaves are its payload.
  This is what an accumulator read back after "zero it, then store the sum" holds, and the output block of a kernel that
  copies such an accumulator out at the same grid point.
-/
import Idealize.ShloMosaic.Lib.Pipeline.Value

namespace Idealize.ShloMosaic.View

open Idealize.ShloMosaic

/-- A load of the whole shape after a list of stores (most recent first) whose most recent one, the list's head, stored
    the whole shape reads that store's payload `w`; `L` is the earlier stores. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Idealize.ShloMosaic.View
-- ==== Proof.Pieces.lean ====
/-
  What one run of the body leaves in the carried accumulator and in the output block.

  The body has two control cases.  At the first point of a run over the reduction axis it stores the zero block into the
  accumulator, reads it back, adds the tile's product and stores the sum; at every later point it reads what the point
  before left, adds and stores.  In both cases the output block is then stored with what the accumulator holds.  So the
  accumulator and the output block both end at the body's one arithmetic term: the accumulator's previous contents (zero
  in the first case) plus the tile's product, computed from the activation tile, the code tile and the eight rows of the
  scale and zero blocks that the point's reduction coordinate selects.
-/
import proofs.«156196_j25744033972725_1_alg».proof.Proof.Gen.KernelIdeal.Frame
import proofs.«156196_j25744033972725_1_alg».proof.Proof.LibReadCovWhole
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- The eight rows of a [32,1024] block that the point's reduction coordinate selects: rows `8·k … 8·k + 7`. -/
def rows (i : grid0.Coords) (X : Vec F S32x1024 .f32) : Vec F S8x1024 .f32 :=
  View.ld X (Rect.unit (s := S32x1024) (k0_off1 i) S8x1024.size (k0_off1_inb i))

/-- A later point of a run: the accumulator ends at its previous contents plus the tile's product. -/
theorem acc_later (c : Dev nD) (i : grid0.Coords) (arg2 : Memref sig .tc .vmem S8x1024 .f32) (harg2 : arg2.IsWhole) (arg3 : Memref sig .tc .vmem S1024x1024 .i32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S8x1024 .f32) (harg6 : arg6.IsWhole) (arg7 : Memref sig .tc .vmem S8x1024 .f32) (harg7 : arg7.IsWhole) (hc0 : ¬cond0_0 i)
    (x0 : Vec F S8x1024 .f32) (x1 : Vec F S1024x1024 .i32) (x2 : Vec F S32x1024 .f32) (x3 : Vec F S32x1024 .f32) (xs0 : Vec F S8x1024 .f32) :
    sout0_B_0 c i arg2 harg2 arg3 harg3 arg4 harg4 arg5 harg5 arg6 harg6 arg7 harg7 hc0 x0 x1 x2 x3 xs0 = k0_pay2 (rows i x2) (rows i x3) x1 x0 xs0 := by
  unfold sout0_B_0
  rw [View.read_writes_eq_canon _ _ _ (scover0_B_0 c i arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S8x1024) hz, View.ld_unit_zero (S := S1024x1024) hz]
  rfl

/-- A later point of a run: the output block ends at what the accumulator ends at. -/
theorem out_later (c : Dev nD) (i : grid0.Coords) (arg2 : Memref sig .tc .vmem S8x1024 .f32) (harg2 : arg2.IsWhole) (arg3 : Memref sig .tc .vmem S1024x1024 .i32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S8x1024 .f32) (harg6 : arg6.IsWhole) (arg7 : Memref sig .tc .vmem S8x1024 .f32) (harg7 : arg7.IsWhole) (hc0 : ¬cond0_0 i)
    (x0 : Vec F S8x1024 .f32) (x1 : Vec F S1024x1024 .i32) (x2 : Vec F S32x1024 .f32) (x3 : Vec F S32x1024 .f32) (xs0 : Vec F S8x1024 .f32) :
    out0_B_4 c i arg2 harg2 arg3 harg3 arg4 harg4 arg5 harg5 arg6 harg6 arg7 harg7 hc0 x0 x1 x2 x3 xs0 = k0_pay2 (rows i x2) (rows i x3) x1 x0 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S8x1024) hz, View.readCov_unit_zero (S := S8x1024) _ hz]
  simp only [View.readAt_eq_ld, harg2.read_unread, harg3.read_unread, harg4.read_unread, harg5.read_unread, harg7.read_unread,
    View.ld_unit_zero (S := S8x1024) hz, View.ld_unit_zero (S := S1024x1024) hz]
  rfl

/-- The first point of a run: the accumulator ends at the zero block plus the tile's product. -/
theorem acc_first (c : Dev nD) (i : grid0.Coords) (arg2 : Memref sig .tc .vmem S8x1024 .f32) (harg2 : arg2.IsWhole) (arg3 : Memref sig .tc .vmem S1024x1024 .i32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S8x1024 .f32) (harg6 : arg6.IsWhole) (arg7 : Memref sig .tc .vmem S8x1024 .f32) (harg7 : arg7.IsWhole) (hc0 : cond0_0 i)
    (x0 : Vec F S8x1024 .f32) (x1 : Vec F S1024x1024 .i32) (x2 : Vec F S32x1024 .f32) (x3 : Vec F S32x1024 .f32) :
    sout0_A_0 c i arg2 harg2 arg3 harg3 arg4 harg4 arg5 harg5 arg6 harg6 arg7 harg7 hc0 x0 x1 x2 x3 = k0_pay2 (rows i x2) (rows i x3) x1 x0 (k0_pay1 (F := F)) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_cons_unit_zero (S := S8x1024) hz, View.readCov_unit_zero (S := S8x1024) _ hz]
  simp only [View.readAt_eq_ld, harg2.read_unread, harg3.read_unread, harg4.read_unread, harg5.read_unread,
    View.ld_unit_zero (S := S8x1024) hz, View.ld_unit_zero (S := S1024x1024) hz]
  rfl

/-- The first point of a run: the output block ends at what the accumulator ends at. -/
theorem out_first (c : Dev nD) (i : grid0.Coords) (arg2 : Memref sig .tc .vmem S8x1024 .f32) (harg2 : arg2.IsWhole) (arg3 : Memref sig .tc .vmem S1024x1024 .i32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S8x1024 .f32) (harg6 : arg6.IsWhole) (arg7 : Memref sig .tc .vmem S8x1024 .f32) (harg7 : arg7.IsWhole) (hc0 : cond0_0 i)
    (x0 : Vec F S8x1024 .f32) (x1 : Vec F S1024x1024 .i32) (x2 : Vec F S32x1024 .f32) (x3 : Vec F S32x1024 .f32) :
    out0_A_4 c i arg2 harg2 arg3 harg3 arg4 harg4 arg5 harg5 arg6 harg6 arg7 harg7 hc0 x0 x1 x2 x3 = k0_pay2 (rows i x2) (rows i x3) x1 x0 (k0_pay1 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S8x1024) hz, View.readCov_cons_whole (S := S8x1024) _ hz,
    View.readCov_unit_zero (S := S8x1024) _ hz]
  simp only [View.readAt_eq_ld, harg2.read_unread, harg3.read_unread, harg4.read_unread, harg5.read_unread,
    View.ld_unit_zero (S := S8x1024) hz, View.ld_unit_zero (S := S1024x1024) hz]
  rfl

end Cert.KernelIdeal.Pieces

end
-- ==== Proof.BlockReads.lean ====
/-
  Where each grid point's blocks lie in the arrays.

  The grid has 12 × 4 points; point t has output-tile number t / 4 and reduction-tile number t % 4.  At point t the
  activation block is columns 1024·(t % 4) … of all 8 rows; the code block is rows 1024·(t / 4) … and columns 1024·(t % 4) …;
  the scale and zero blocks are all 32 rows of columns 1024·(t / 4) …, of which the body uses rows 8·(t % 4) … 8·(t % 4) + 7;
  the output block is columns 1024·(t / 4) … of all 8 rows.  A block's coordinate is always block index × block extent plus
  the coordinate inside the block.
-/
import proofs.«156196_j25744033972725_1_alg».proof.Proof.Pieces
import Idealize.ShloMosaic.Lib.ValueIdx

noncomputable section

namespace Cert.KernelIdeal.BlockReads

open Cert.KernelIdeal Cert.KernelIdeal.Gen Cert.KernelIdeal.Pieces Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The activation block at point `t`. -/
abbrev xblk (c : Dev nD) (t : Fin cfg0.N) : Vec F S8x1024 .f32 := iblk m c 0 t
/-- The code block at point `t`. -/
abbrev qblk (c : Dev nD) (t : Fin cfg0.N) : Vec F S1024x1024 .i32 := iblk m c 1 t
/-- The scale block at point `t`. -/
abbrev sblk (c : Dev nD) (t : Fin cfg0.N) : Vec F S32x1024 .f32 := iblk m c 2 t
/-- The zero-point block at point `t`. -/
abbrev zblk (c : Dev nD) (t : Fin cfg0.N) : Vec F S32x1024 .f32 := iblk m c 3 t
/-- The activations, as the region finds them. -/
abbrev xarr (c : Dev nD) : Vec F S8x4096 .f32 := V m c main_arg0
/-- The codes. -/
abbrev qarr (c : Dev nD) : Vec F S12288x4096 .i32 := V m c main_arg1
/-- The scales. -/
abbrev sarr (c : Dev nD) : Vec F S32x12288 .f32 := V m c main_arg2
/-- The zero points. -/
abbrev zarr (c : Dev nD) : Vec F S32x12288 .f32 := V m c main_arg3

/-- The printed index maps, decided once over the grid's 48 points. -/
theorem idx_facts : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4
    ∧ win0_3.index t (0 : Fin 2) = 0 ∧ win0_3.index t (1 : Fin 2) = t.val / 4
    ∧ win0_4.index t (0 : Fin 2) = 0 ∧ win0_4.index t (1 : Fin 2) = t.val / 4 :=
  (by decide +kernel : ∀ t : Fin grid0.N, _)

/-- The first of the eight rows the body selects, decided over the grid. -/
theorem off_facts : ∀ t : Fin cfg0.N,
    k0_off1 (grid0.coords t) (0 : Fin 2) = 8 * (t.val % 4) ∧ k0_off1 (grid0.coords t) (1 : Fin 2) = 0 :=
  (by decide +kernel : ∀ t : Fin grid0.N, _)

theorem N48 : cfg0.N = 48 := N_0

/-- The global column of column `kk` of reduction tile `t % 4`. -/
def kcol (t : Fin cfg0.N) (kk : Fin 1024) : Fin 4096 :=
  ⟨1024 * (t.val % 4) + kk.val, by have := kk.isLt; omega⟩
/-- The global output feature of feature `n` of output tile `t / 4`. -/
def nrow (t : Fin cfg0.N) (n : Fin 1024) : Fin 12288 :=
  ⟨1024 * (t.val / 4) + n.val, by have := n.isLt; have := t.isLt; have := N48; omega⟩
/-- The global group of group `g` of reduction tile `t % 4`. -/
def ggrp (t : Fin cfg0.N) (g : Fin 8) : Fin 32 :=
  ⟨8 * (t.val % 4) + g.val, by have := g.isLt; omega⟩

/-- The activation block at a point, read at `(b, kk)`. -/
theorem x_read (c : Dev nD) (t : Fin cfg0.N) (b : Fin 8) (kk : Fin 1024) :
    xblk m c t (ix2 b kk) = xarr m c (ix2 b (kcol t kk)) := by
  obtain ⟨e0, e1, -⟩ := idx_facts t
  show iblk m c 0 t (ix2 b kk) = V m c main_arg0 (ix2 b (kcol t kk))
  unfold iblk
  rw [View.read_apply]
  show V m c main_arg0 (((cfg0.win 0).blk t).view.emb (ix2 b kk)) = V m c main_arg0 (ix2 b (kcol t kk))
  refine congrArg (V m c main_arg0) (funext fun a => Fin.ext ?_)
  match a with
  | ⟨0, _⟩ => show win0_0.index t (0 : Fin 2) * 8 + 1 * b.val = b.val; rw [e0]; omega
  | ⟨1, _⟩ => show win0_0.index t (1 : Fin 2) * 1024 + 1 * kk.val = 1024 * (t.val % 4) + kk.val; rw [e1]; omega

/-- The code block at a point, read at `(n, kk)`. -/
theorem q_read (c : Dev nD) (t : Fin cfg0.N) (n kk : Fin 1024) :
    qblk m c t (ix2 n kk) = qarr m c (ix2 (nrow t n) (kcol t kk)) := by
  obtain ⟨-, -, e0, e1, -⟩ := idx_facts t
  show iblk m c 1 t (ix2 n kk) = V m c main_arg1 (ix2 (nrow t n) (kcol t kk))
  unfold iblk
  rw [View.read_apply]
  show V m c main_arg1 (((cfg0.win 1).blk t).view.emb (ix2 n kk)) = V m c main_arg1 (ix2 (nrow t n) (kcol t kk))
  refine congrArg (V m c main_arg1) (funext fun a => Fin.ext ?_)
  match a with
  | ⟨0, _⟩ => show win0_1.index t (0 : Fin 2) * 1024 + 1 * n.val = 1024 * (t.val / 4) + n.val; rw [e0]; omega
  | ⟨1, _⟩ => show win0_1.index t (1 : Fin 2) * 1024 + 1 * kk.val = 1024 * (t.val % 4) + kk.val; rw [e1]; omega

/-- The scale block at a point, read at `(r, n)`. -/
theorem s_read (c : Dev nD) (t : Fin cfg0.N) (r : Fin 32) (n : Fin 1024) :
    sblk m c t (ix2 r n) = sarr m c (ix2 r (nrow t n)) := by
  obtain ⟨-, -, -, -, e0, e1, -⟩ := idx_facts t
  show iblk m c 2 t (ix2 r n) = V m c main_arg2 (ix2 r (nrow t n))
  unfold iblk
  rw [View.read_apply]
  show V m c main_arg2 (((cfg0.win 2).blk t).view.emb (ix2 r n)) = V m c main_arg2 (ix2 r (nrow t n))
  refine congrArg (V m c main_arg2) (funext fun a => Fin.ext ?_)
  match a with
  | ⟨0, _⟩ => show win0_2.index t (0 : Fin 2) * 32 + 1 * r.val = r.val; rw [e0]; omega
  | ⟨1, _⟩ => show win0_2.index t (1 : Fin 2) * 1024 + 1 * n.val = 1024 * (t.val / 4) + n.val; rw [e1]; omega

/-- The zero-point block at a point, read at `(r, n)`. -/
theorem z_read (c : Dev nD) (t : Fin cfg0.N) (r : Fin 32) (n : Fin 1024) :
    zblk m c t (ix2 r n) = zarr m c (ix2 r (nrow t n)) := by
  obtain ⟨-, -, -, -, -, -, e0, e1, -⟩ := idx_facts t
  show iblk m c 3 t (ix2 r n) = V m c main_arg3 (ix2 r (nrow t n))
  unfold iblk
  rw [View.read_apply]
  show V m c main_arg3 (((cfg0.win 3).blk t).view.emb (ix2 r n)) = V m c main_arg3 (ix2 r (nrow t n))
  refine congrArg (V m c main_arg3) (funext fun a => Fin.ext ?_)
  match a with
  | ⟨0, _⟩ => show win0_3.index t (0 : Fin 2) * 32 + 1 * r.val = r.val; rw [e0]; omega
  | ⟨1, _⟩ => show win0_3.index t (1 : Fin 2) * 1024 + 1 * n.val = 1024 * (t.val / 4) + n.val; rw [e1]; omega

/-- The eight selected rows of a [32,1024] block at a point, read at `(g, n)`: row `8·(t % 4) + g` of the block. -/
theorem rows_read (t : Fin cfg0.N) (X : Vec F S32x1024 .f32) (g : Fin 8) (n : Fin 1024) :
    rows (grid0.coords t) X (ix2 g n) = X (ix2 (ggrp t g) n) := by
  obtain ⟨o0, o1⟩ := off_facts t
  unfold rows
  show X ((Rect.unit (s := S32x1024) (k0_off1 (grid0.coords t)) S8x1024.size (k0_off1_inb (grid0.coords t))).idx (ix2 g n)) = X (ix2 (ggrp t g) n)
  refine congrArg X (funext fun a => Fin.ext ?_)
  match a with
  | ⟨0, _⟩ => show k0_off1 (grid0.coords t) (0 : Fin 2) + 1 * g.val = 8 * (t.val % 4) + g.val; rw [o0]; omega
  | ⟨1, _⟩ => show k0_off1 (grid0.coords t) (1 : Fin 2) + 1 * n.val = n.val; rw [o1]; omega

end Cert.KernelIdeal.BlockReads

end
-- ==== Proof.AtPoint.lean ====
/-
  One grid point's effect on the carried accumulator, and the output block after every point.

  Whatever the point, the accumulator ends at the body's term over the point's blocks and the accumulator's previous
  contents — the zero block at the first point of a run over the reduction axis (points ≡ 0 mod 4), what the point before
  left at the others — and the output block ends equal to the accumulator.
-/
import proofs.«156196_j25744033972725_1_alg».proof.Proof.Gen.KernelIdeal.Value
import proofs.«156196_j25744033972725_1_alg».proof.Proof.BlockReads

noncomputable section

namespace Cert.KernelIdeal.AtPoint

open Cert.KernelIdeal Cert.KernelIdeal.Gen Cert.KernelIdeal.Value Cert.KernelIdeal.Pieces Cert.KernelIdeal.BlockReads
open Idealize.ShloMosaic Idealize.ShloMosaic.TcCoe Idealize.SL.Sem

variable {F : FTy → Type} [FloatOps F]
variable (m : (ℓ : Loc nD τ sig) → Buf (Elt F) ℓ)

/-- The body's term at point `t` over accumulator contents `acc`: `acc` plus the point's tile product. -/
def step (c : Dev nD) (t : Fin cfg0.N) (acc : Vec F S8x1024 .f32) : Vec F S8x1024 .f32 :=
  k0_pay2 (rows (grid0.coords t) (sblk m c t)) (rows (grid0.coords t) (zblk m c t)) (qblk m c t) (xblk m c t) acc

/-- At the first point of a run the accumulator ends at the body's term over the zero block. -/
theorem scAt_first (c : Dev nD) (n : ℕ) (hb : n < cfg0.N) (h0 : n % 4 = 0) (acc : Vec F S8x1024 .f32) :
    scAt0_0 m c n hb acc = step m c ⟨n, hb⟩ (k0_pay1 (F := F)) := by
  unfold scAt0_0
  rw [dif_pos h0]
  exact acc_first (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

/-- At a later point of a run the accumulator ends at the body's term over what it held. -/
theorem scAt_later (c : Dev nD) (n : ℕ) (hb : n < cfg0.N) (h0 : ¬n % 4 = 0) (acc : Vec F S8x1024 .f32) :
    scAt0_0 m c n hb acc = step m c ⟨n, hb⟩ acc := by
  unfold scAt0_0
  rw [dif_neg h0]
  exact acc_later (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- After every point the output block holds what the accumulator holds. -/
theorem out_eq_acc (c : Dev nD) (t : Fin cfg0.N) : (outsAt0 m c t.val t.isLt).1 = (outsAt0 m c t.val t.isLt).2 := by
  by_cases h0 : t.val % 4 = 0
  · rw [outsAt0_A m c t h0]
    dsimp only
    exact (out_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
      (acc_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).symm
  · rw [outsAt0_B m c t h0]
    dsimp only
    exact (out_later (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2).trans
      (acc_later (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2).symm

end Cert.KernelIdeal.AtPoint

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.PointValue.lean ====
/-
  What one grid point adds, read at an index.

  At a grid point the body holds a [8,1024] tile of the activations, a [1024,1024] tile of the integer codes (rows: 1024
  output features; columns: 1024 consecutive input features), and eight rows of the scales and of the zero points (one row
  per group of 128 columns in the tile).  It forms the dequantized tile  w[n,kk] = (q[n,kk] - 8) · s[kk/128, n] + z[kk/128, n]
  (by viewing the 1024 columns as 8 groups of 128 lanes, broadcasting the transposed scale and zero rows over the lanes, and
  viewing the result as [1024,1024] again), and adds to the carried accumulator the product of the activation tile with the
  transposed weight tile.  Format changes are the identity on extended reals, so at the exact instance the stored value at
  (b, n) is   acc[b,n] + Σ_{kk < 1024} x[b,kk] · w[n,kk].
-/
import proofs.«156196_j25744033972725_1_alg».proof.Proof.Gen.KernelIdeal.Skeleton
import proofs.«156196_j25744033972725_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.PointValue

open Cert.KernelIdeal Cert.KernelIdeal.Gen Idealize.ShloMosaic Idealize.ShloMosaic.ValueIdx

/-- The group (of 128 lanes) inside a tile that column `kk` of the tile lies in. -/
def sub (kk : Fin 1024) : Fin 8 := ⟨kk.val / 128, by have := kk.isLt; omega⟩
/-- The lane of column `kk` inside its group. -/
def lane (kk : Fin 1024) : Fin 128 := ⟨kk.val % 128, Nat.mod_lt _ (by decide)⟩

/-- The body's matrix unit multiplies rows by columns. -/
theorem dot_plain : dot_S8x1024_S1024x1024_S8x1024_1_0_0_1_n_n = DotDims.plain 8 1024 1024 := rfl

/-- The dequantized tile at row `n`, column `kk`, from the code tile and the eight scale and zero rows. -/
def wtile (sc zp : Vec Ideal S8x1024 .f32) (qt : Vec Ideal S1024x1024 .i32) (n kk : Fin 1024) : EReal :=
  (FloatOps.sitofp (F := Ideal) .f32 (qt (ix2 n kk)) - Ideal.ofBits .f32 0x41000000#32) * sc (ix2 (sub kk) n) + zp (ix2 (sub kk) n)

/-- A [1024,8] array viewed as [1024,8,1] and broadcast over 128 lanes reads, at `(n, g, l)`, the array at `(n, g)`. -/
theorem lanes_apply (v : FVec Ideal S1024x8 .f32) (n : Fin 1024) (g : Fin 8) (l : Fin 128) :
    broadcastTo S1024x8x128 (shapeCast S1024x8x1 v shapeCasts_S1024x8_S1024x8x1) broadcasts_S1024x8x1_S1024x8x128 (ix3 n g l)
      = v (ix2 n g) := by
  rw [broadcastTo_apply _ broadcasts_S1024x8x1_S1024x8x128 (ix3 n g l) (ix3 n g (0 : Fin 1)) (fun a => by
    match a with
    | ⟨0, _⟩ => show n.val = if (1024 : Nat) = 1 then 0 else n.val; rw [if_neg (by decide)]
    | ⟨1, _⟩ => show g.val = if (8 : Nat) = 1 then 0 else g.val; rw [if_neg (by decide)]
    | ⟨2, _⟩ => show 0 = if (1 : Nat) = 1 then 0 else l.val; rw [if_pos rfl])]
  exact shapeCast_apply v shapeCasts_S1024x8_S1024x8x1 (ix3 n g (0 : Fin 1)) (ix2 n g) (by
    rw [Shape.rowMajor_val_two, Shape.rowMajor_val_three]
    show n.val * 8 + g.val = (n.val * 8 + g.val) * 1 + 0
    omega)

/-- The stored payload at `(b, n)`: the accumulator there plus the tile's contribution. -/
theorem pay2_apply (sc zp : Vec Ideal S8x1024 .f32) (qt : Vec Ideal S1024x1024 .i32) (xt acc : Vec Ideal S8x1024 .f32)
    (b : Fin 8) (n : Fin 1024) :
    k0_pay2 (F := Ideal) sc zp qt xt acc (ix2 b n)
      = acc (ix2 b n) + ∑ kk : Fin 1024, xt (ix2 b kk) * wtile sc zp qt n kk := by
  unfold k0_pay2
  dsimp only
  rw [shapeCast_self]
  show acc (ix2 b n) + FloatOps.matmul (F := Ideal) dot_S8x1024_S1024x1024_S8x1024_1_0_0_1_n_n none _ _ (constant (F := Ideal) S8x1024 .f32 0x00000000#32) (ix2 b n) = _
  rw [dot_plain, plain_matmul_zero_apply]
  refine congrArg (acc (ix2 b n) + ·) (Finset.sum_congr rfl fun kk _ => ?_)
  show xt (ix2 b kk) * transpose S1024x1024 [1, 0] _ transposes_S1024x1024_p1_0_S1024x1024 (ix2 kk n) = _
  rw [transpose_ix2_apply]
  refine congrArg (xt (ix2 b kk) * ·) ?_
  rw [truncf_apply, shapeCast_apply _ shapeCasts_S1024x8x128_S1024x1024 (ix2 n kk) (ix3 n (sub kk) (lane kk)) (by
    rw [Shape.rowMajor_val_two, Shape.rowMajor_val_three]
    show (n.val * 8 + kk.val / 128) * 128 + kk.val % 128 = n.val * 1024 + kk.val
    omega)]
  rw [addf_apply, mulf_apply, subf_apply, lanes_apply, lanes_apply, transpose_ix2_apply, transpose_ix2_apply,
    shapeCast_apply _ shapeCasts_S1024x1024_S1024x8x128 (ix3 n (sub kk) (lane kk)) (ix2 n kk) (by
      rw [Shape.rowMajor_val_two, Shape.rowMajor_val_three]
      show n.val * 1024 + kk.val = (n.val * 8 + kk.val / 128) * 128 + kk.val % 128
      omega)]
  rfl

end Cert.KernelIdeal.PointValue

end
-- ==== Proof.Fold.lean ====
/-
  The accumulator over a run of the reduction axis, read at an index.

  At point t the body adds to the accumulator, at (b, n), the sum over the 1024 columns kk of the point's reduction tile of
  x[b, k] · w[N, k], with k = 1024·(t % 4) + kk the global column and N = 1024·(t / 4) + n the global output feature: the
  blocks are restrictions of the arrays, and group kk / 128 of the tile is group k / 128 of the array.  The run of output
  tile q is the points 4q, 4q + 1, 4q + 2, 4q + 3; the first starts from zero.  So after the run's last point the accumulator
  holds, at (b, n), zero plus the four tiles' sums in order — the sum over all 4096 columns, by regrouping.
-/
import proofs.«156196_j25744033972725_1_alg».proof.Proof.AtPoint
import proofs.«156196_j25744033972725_1_alg».proof.Proof.PointValue
import proofs.«156196_j25744033972725_1_alg».proof.Proof.Spec

noncomputable section

open scoped BigOperators

namespace Cert.KernelIdeal.Fold

open Cert.KernelIdeal Cert.KernelIdeal.Gen Cert.KernelIdeal.Value Cert.KernelIdeal.Pieces Cert.KernelIdeal.BlockReads
open Cert.KernelIdeal.AtPoint Cert.KernelIdeal.PointValue Cert.Dequant
open Idealize.ShloMosaic Idealize.ShloMosaic.TcCoe Idealize.SL.Sem Idealize.ShloMosaic.ValueIdx

variable (m : (ℓ : Loc nD τ sig) → Buf (Elt Ideal) ℓ)

/-- One term of the layer's sum: `x[b,k] · w[N,k]` over the arrays as the region finds them. -/
def term (c : Dev nD) (b : Fin 8) (N : Fin 12288) (k : Fin 4096) : EReal :=
  xarr m c (ix2 b k) * wgt (qarr m c) (sarr m c) (zarr m c) N k

/-- The zero block reads zero. -/
theorem pay1_apply (j : S8x1024.Idx) : k0_pay1 (F := Ideal) j = 0 := by
  unfold k0_pay1
  rw [shapeCast_self]
  exact Ideal.ofBits_zero_f32

/-- The body's term at point `t`, at `(b, n)`: the accumulator there plus the point's tile of the layer's sum. -/
theorem step_apply (c : Dev nD) (t : Fin cfg0.N) (acc : Vec Ideal S8x1024 .f32) (b : Fin 8) (n : Fin 1024) :
    step m c t acc (ix2 b n) = acc (ix2 b n) + ∑ kk : Fin 1024, term m c b (nrow t n) (kcol t kk) := by
  unfold step
  rw [pay2_apply]
  refine congrArg (acc (ix2 b n) + ·) (Finset.sum_congr rfl fun kk _ => ?_)
  unfold wtile term wgt
  rw [rows_read, rows_read, x_read, q_read, s_read, z_read]
  have hg : ggrp t (sub kk) = grp (kcol t kk) := Fin.ext (by
    show 8 * (t.val % 4) + kk.val / 128 = (1024 * (t.val % 4) + kk.val) / 128
    omega)
  rw [hg]

/-- What point `n` adds at index `j` of the accumulator (zero past the grid, where nothing is asked of it). -/
def addend (c : Dev nD) (n : ℕ) (j : S8x1024.Idx) : EReal :=
  if h : n < cfg0.N then ∑ kk : Fin 1024, term m c (j 0) (nrow ⟨n, h⟩ (j 1)) (kcol ⟨n, h⟩ kk) else 0

/-- The accumulator after point `t`, at index `j`: zero plus the addends of the run's points up to `t`. -/
theorem acc_sum (c : Dev nD) (t : Fin cfg0.N) (j : S8x1024.Idx) :
    (outsAt0 m c t.val t.isLt).2 j = 0 + ∑ s ∈ Finset.range (t.val % 4 + 1), addend m c (4 * (t.val / 4) + s) j := by
  rw [soutsAt0_0_eq]
  refine Pipeline.accAt_add_apply (β := EReal) (fun n h => scAt0_0 m c n h (VS0_0.read (Elt Ideal) VS0_0.junk)) (scAt0_0 m c)
    (fun _ => 0) (addend m c) (4 * (t.val / 4)) 3 ?_ ?_ (t.val % 4) (by omega) _ j
  · intro h i
    obtain ⟨b, n, rfl⟩ : ∃ (b : Fin 8) (n : Fin 1024), i = ix2 b n := ⟨i 0, i 1, eq_ix2 i⟩
    show scAt0_0 m c (4 * (t.val / 4)) h _ (ix2 b n) = 0 + addend m c (4 * (t.val / 4)) (ix2 b n)
    rw [scAt_first m c _ h (by omega), step_apply, pay1_apply]
    unfold addend
    rw [dif_pos h]
  · intro n h acc i hlt hle
    obtain ⟨b, nn, rfl⟩ : ∃ (b : Fin 8) (nn : Fin 1024), i = ix2 b nn := ⟨i 0, i 1, eq_ix2 i⟩
    rw [scAt_later m c n h (by omega), step_apply]
    unfold addend
    rw [dif_pos h]

/-- After the LAST point of output tile `q`'s run the accumulator holds, at `(b, n)`, the layer's sum for output feature
    `1024·q + n`. -/
theorem acc_last (c : Dev nD) (t : Fin cfg0.N) (h3 : t.val % 4 = 3) (b : Fin 8) (n : Fin 1024) :
    (outsAt0 m c t.val t.isLt).2 (ix2 b n) = lin (xarr m c) (qarr m c) (sarr m c) (zarr m c) (ix2 b (nrow t n)) := by
  rw [acc_sum, h3]
  show 0 + ∑ s ∈ Finset.range 4, addend m c (4 * (t.val / 4) + s) (ix2 b n) = ∑ k : Fin 4096, term m c b (nrow t n) k
  refine zero_add_range_tiles (fun k => term m c b (nrow t n) k) _ fun s hs => ?_
  have hN := N48
  have ht := t.isLt
  have hlt : 4 * (t.val / 4) + s < cfg0.N := by omega
  unfold addend
  rw [dif_pos hlt]
  refine Finset.sum_congr rfl fun kk _ => ?_
  have e1 : nrow ⟨4 * (t.val / 4) + s, hlt⟩ n = nrow t n := Fin.ext (by
    show 1024 * ((4 * (t.val / 4) + s) / 4) + n.val = 1024 * (t.val / 4) + n.val
    omega)
  have e2 : kcol ⟨4 * (t.val / 4) + s, hlt⟩ kk = colN s hs kk := Fin.ext (by
    show 1024 * ((4 * (t.val / 4) + s) % 4) + kk.val = 1024 * s + kk.val
    omega)
  show term m c b (nrow ⟨4 * (t.val / 4) + s, hlt⟩ n) (kcol ⟨4 * (t.val / 4) + s, hlt⟩ kk) = _
  rw [e1, e2]

end Cert.KernelIdeal.Fold

end
-- ==== Proof.Final.lean ====
/-
  The kernel's result array.

  Output tile q's block — all 8 rows, columns 1024·q … 1024·q + 1023 — is written back once, after the last point 4q + 3 of
  its run, with what the output block holds then: the accumulator, which at (b, n) is the layer's sum for output feature
  1024·q + n.  The twelve blocks tile the [8, 12288] array (column N lies in tile N / 1024), so the array ends holding the
  layer's function of the four arguments at every index.
-/
import proofs.«156196_j25744033972725_1_alg».proof.Proof.Fold

noncomputable section

namespace Cert.KernelIdeal.Final

open Cert.KernelIdeal Cert.KernelIdeal.Gen Cert.KernelIdeal.Value Cert.KernelIdeal.BlockReads
open Cert.KernelIdeal.AtPoint Cert.KernelIdeal.Fold Cert.Dequant
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's function of the argument arrays as launched, as contents of the result array. -/
abbrev result (c : Dev nD) : Buf (Elt Ideal) ((c : Thread nD τ).loc main_v0) :=
  lin (m ((c : Thread nD τ).loc main_arg0)) (m ((c : Thread nD τ).loc main_arg1)) (m ((c : Thread nD τ).loc main_arg2))
    (m ((c : Thread nD τ).loc main_arg3))

/-- What a writing-back point writes is its block of the layer's function. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  obtain ⟨-, -, -, -, -, -, -, -, e0, e1⟩ := idx_facts t
  rw [flushed4, out_eq_acc]
  funext j
  obtain ⟨b, n, rfl⟩ : ∃ (b : Fin 8) (n : Fin 1024), j = ix2 b n := ⟨j 0, j 1, eq_ix2 j⟩
  show (outsAt0 m c t.val t.isLt).2 (ix2 b n) = result m c (((cfg0.win 4).blk t).view.emb (ix2 b n))
  rw [acc_last m c t h3]
  show result m c (ix2 b (nrow t n)) = result m c (((cfg0.win 4).blk t).view.emb (ix2 b n))
  refine congrArg (result m c) (funext fun a => Fin.ext ?_)
  match a with
  | ⟨0, _⟩ => show b.val = win0_4.index t (0 : Fin 2) * 8 + 1 * b.val; rw [e0]; omega
  | ⟨1, _⟩ => show 1024 * (t.val / 4) + n.val = win0_4.index t (1 : Fin 2) * 1024 + 1 * n.val; rw [e1]; omega

/-- Every index of the result array lies in the block of its output tile's last point. -/
theorem covered (i : S8x12288.Idx) :
    ∃ t : Fin cfg0.N, (cfg0.win 4).flush t = true ∧ i ∈ ((cfg0.win 4).blk t).view.set := by
  have hi0 : (i 0).val < 8 := (i 0).isLt
  have hi1 : (i 1).val < 12288 := (i 1).isLt
  have hN := N48
  obtain ⟨tv, hdef⟩ : ∃ tv : ℕ, tv = 4 * ((i 1).val / 1024) + 3 := ⟨_, rfl⟩
  have htv : tv < cfg0.N := by omega
  obtain ⟨-, -, -, -, -, -, -, -, e0, e1⟩ := idx_facts ⟨tv, htv⟩
  have e1' : win0_4.index ⟨tv, htv⟩ (1 : Fin 2) = tv / 4 := e1
  refine ⟨⟨tv, htv⟩, (flush0_4 _).mpr (by show tv % 4 = 3; omega), ?_⟩
  show i ∈ ((View.whole main_v0).slice (win0_4.rect ⟨tv, htv⟩)).set
  rw [View.set_slice_whole, Rect.mem_set_unit]
  intro a
  match a with
  | ⟨0, _⟩ =>
    show win0_4.index ⟨tv, htv⟩ (0 : Fin 2) * 8 ≤ (i 0).val ∧ (i 0).val < win0_4.index ⟨tv, htv⟩ (0 : Fin 2) * 8 + 8
    rw [e0]; omega
  | ⟨1, _⟩ =>
    show win0_4.index ⟨tv, htv⟩ (1 : Fin 2) * 1024 ≤ (i 1).val ∧ (i 1).val < win0_4.index ⟨tv, htv⟩ (1 : Fin 2) * 1024 + 1024
    rw [e1']; omega

/-- The result array after the run is the layer's function of the arguments. -/
theorem final (c : Dev nD) : (dats m 0 c).arrAt 4 cfg0.N = result m c :=
  (dats m 0 c).arrAt_eq_of_cover 4 (result m c) (flushed_eq m c) covered

/-- The run: it terminates with the result array at the layer's function and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.lean ====
/-
  A linear layer with group-quantized weights: the kernel against its plain reference, over the extended reals.

  Both programs compute  y[b,n] = Σ_{k < 4096} x[b,k] · ((q[n,k] - 8) · s[k/128, n] + z[k/128, n]).
  The reference forms the whole dequantized weight matrix and contracts it with the activations in one product.
  The kernel walks a 12 × 4 grid: for each tile of 1024 output features it runs over four tiles of 1024 input features,
  dequantizes the [1024,1024] code tile with the eight scale and zero rows the reduction tile selects, multiplies it with
  the activation tile on the matrix unit into a zero accumulator, and adds the product into a scratch accumulator that it
  zeroes at the run's first point; the output block is stored with the accumulator at every point and written back after
  the run's last.  At the exact instance format changes are the identity and both products are plain sums, so the kernel's
  value at (b, n) is zero plus the four tiles' sums in order and the reference's is the sum over all 4096 columns: equal by
  regrouping a finite sum in a commutative monoid.  No distributive law is used, so the precondition is never opened.
  The ideal pass rewrote nothing, so the idealization is the kernel's own text read at the exact instance.
-/
import proofs.«156196_j25744033972725_1_alg».proof.Defs
import proofs.«156196_j25744033972725_1_alg».proof.Proof.Gen.Kernel
import proofs.«156196_j25744033972725_1_alg».proof.Proof.Gen.Kernel.Skeleton
import proofs.«156196_j25744033972725_1_alg».proof.Proof.Gen.Kernel.Launch
import proofs.«156196_j25744033972725_1_alg».proof.Proof.Gen.Kernel.Points
import proofs.«156196_j25744033972725_1_alg».proof.Proof.Gen.Kernel.Frame
import proofs.«156196_j25744033972725_1_alg».proof.Proof.Gen.KernelIdeal
import proofs.«156196_j25744033972725_1_alg».proof.Proof.Gen.KernelIdeal.Skeleton
import proofs.«156196_j25744033972725_1_alg».proof.Proof.Gen.KernelIdeal.Launch
import proofs.«156196_j25744033972725_1_alg».proof.Proof.Gen.KernelIdeal.Points
import proofs.«156196_j25744033972725_1_alg».proof.Proof.Gen.KernelIdeal.Frame
import proofs.«156196_j25744033972725_1_alg».proof.Proof.Gen.ReferenceIdeal
import proofs.«156196_j25744033972725_1_alg».proof.Proof.Gen.Pre_finite_inputs
import proofs.«156196_j25744033972725_1_alg».proof.Proof.Gen.KernelIdeal.Value
import proofs.«156196_j25744033972725_1_alg».proof.Proof.Gen.ReferenceIdeal.Run
import proofs.«156196_j25744033972725_1_alg».proof.Proof.Gen.ReferenceIdeal.Read
import proofs.«156196_j25744033972725_1_alg».proof.Proof.RefIsLin
import proofs.«156196_j25744033972725_1_alg».proof.Proof.Final
import Idealize.ShloMosaic.Adequacy
import Idealize.ShloMosaic.Init

noncomputable section

namespace Cert.Proof

open Idealize.ShloMosaic Idealize.SL.Sem Cert.Kernel

/-- The two programs, run from memories that agree on the arguments, both end with the result array at the layer's
    function of the arguments: the kernel's by its accumulated run, the reference's by its composed operations. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.IsLin.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
